-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v21) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel

variable [Facts]

def fn_part1 {F : FTy → Type} [FloatOps F] (main_arg4 : FVec F S8192x2048 .f32) (main_arg5 : FVec F S8192x2048 .f32) (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  let main_v19 : FVec F S8192x2048 .f32 := Host.absf main_arg4
  let main_cst_6 : FVec F S_ .f32 := constant S_ .f32 0x7F800000#32
  let main_v20 : FVec F S8192x2048 .f32 := broadcastInDim S8192x2048 ![] bcast_S_S8192x2048 main_cst_6
  let main_v21 : IVec S8192x2048 1 := cmpf .olt main_v19 main_v20
  let main_c_7 : IVec S_ 1 := constantI S_ 1 1#1
  let main_v22 : IVec S_ 1 := (fun x v => Host.reduce IntOp.andi x v reducesTo_S8192x2048_S_d0_1 h_S_) main_v21 main_c_7
  let main_v23 : IVec S_ 1 := andi main_v18 main_v22
  let main_v24 : FVec F S8192x2048 .f32 := Host.absf main_arg5
  let main_cst_8 : FVec F S_ .f32 := constant S_ .f32 0x7F800000#32
  let main_v25 : FVec F S8192x2048 .f32 := broadcastInDim S8192x2048 ![] bcast_S_S8192x2048 main_cst_8
  let main_v26 : IVec S8192x2048 1 := cmpf .olt main_v24 main_v25
  let main_c_9 : IVec S_ 1 := constantI S_ 1 1#1
  let main_v27 : IVec S_ 1 := (fun x v => Host.reduce IntOp.andi x v reducesTo_S8192x2048_S_d0_1 h_S_) main_v26 main_c_9
  let main_v28 : IVec S_ 1 := andi main_v23 main_v27
  main_v28

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S8192x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_arg4 main_arg5 main_v13 main_v16
-- ==== Kernel.lean ====
abbrev S8192x2048 : Shape := ⟨2, ![8192, 2048]⟩
abbrev S8192 : Shape := ⟨1, ![8192]⟩
abbrev S256x2048 : Shape := ⟨2, ![256, 2048]⟩
abbrev S256 : Shape := ⟨1, ![256]⟩

abbrev nBuf : Space → Nat
  | .hbm => 7
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256, .f32⟩
  | .local _ .vmem, ⟨13, _⟩ => ⟨S256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S256x2048_S256x2048_0_0 : ∀ a, (![0, 0] : Fin 2 → Nat) a + S256x2048.size a ≤ S256x2048.size a
  h_S256x2048 : 0 < S256x2048.numel
  reduces_S256x2048_S256 : S256x2048.Reduces [1] S256
  inb_S256_S256_0 : ∀ a, (![0] : Fin 1 → Nat) a + S256.size a ≤ S256.size a
  h_S256 : 0 < S256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x2048.size a ≤ S8192x2048.size a
  hwx0_0 : ∀ i : grid0.Coords, EltTy.bits .f32 = 32 ∨ (Rect.block (s := S8192x2048) S256x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S8192x2048.size a
  hwx0_1 : ∀ i : grid0.Coords, EltTy.bits .f32 = 32 ∨ (Rect.block (s := S8192x2048) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S8192x2048.size a
  hwx0_2 : ∀ i : grid0.Coords, EltTy.bits .f32 = 32 ∨ (Rect.block (s := S8192x2048) S256x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S8192x2048.size a
  hwx0_3 : ∀ i : grid0.Coords, EltTy.bits .f32 = 32 ∨ (Rect.block (s := S8192x2048) S256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x2048.size a ≤ S8192x2048.size a
  hwx0_4 : ∀ i : grid0.Coords, EltTy.bits .f32 = 32 ∨ (Rect.block (s := S8192x2048) S256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x2048.size a ≤ S8192x2048.size a
  hwx0_5 : ∀ i : grid0.Coords, EltTy.bits .f32 = 32 ∨ (Rect.block (s := S8192x2048) S256x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S8192.size a
  hwx0_6 : ∀ i : grid0.Coords, EltTy.bits .f32 = 32 ∨ (Rect.block (s := S8192) S256.size (cc0_transform_6 i) (hinb0_6 i)).WholeWords (EltTy.packing .f32)

variable [Facts₀]

abbrev win0_0 : Pipeline.Window sig grid0 :=
  Pipeline.Window.ofSpec (Memref.whole main_arg0) S256x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256x2048.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x2048.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0) S256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S_ : Shape := ⟨0, ![]⟩
abbrev S8192 : Shape := ⟨1, ![8192]⟩

abbrev nBuf : Space → Nat
  | .hbm => 31
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8192x2048, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S_, .f32⟩
  | .hbm, ⟨17, _⟩ => ⟨S8192, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S_, .f32⟩
  | .hbm, ⟨27, _⟩ => ⟨S8192, .f32⟩
  | .hbm, ⟨28, _⟩ => ⟨S8192, .f32⟩
  | .hbm, ⟨29, _⟩ => ⟨S8192, .f32⟩
  | .hbm, ⟨30, _⟩ => ⟨S8192, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel

variable [Facts₀]

class Facts : Prop extends Facts₀ where

variable [Facts]
-- ==== Proof.RowScore.lean ====
/-
  What the program computes, stated once, away from both programs.

  Each of the 8192 rows carries six vectors of 2048 entries: a "head" (real part hr, imaginary part hi), a
  "relation" (rr, ri) and a "tail" (tr, ti). The head is rotated by the relation, with the sign convention
      re k = hr k * rr k - hi k * ri k,        im k = -(hi k * rr k + hr k * ri k),
  and the row's result is the normalised inner product of the rotated head with the tail,
      (sum_k (re k * tr k + im k * ti k)) / sqrt ((sum_k (re k ^ 2 + im k ^ 2)) * (sum_k (tr k ^ 2 + ti k ^ 2))),
  read on the extended reals: sums, products and differences are EReal's, the quotient and the root are the ideal
  instance's `Ideal.div` and `Ideal.sqrt`. Nothing here needs the entries to be finite: both programs build
  exactly this expression, and the only rewriting between them is `0 - x = -x` and `0 + s = s`, which hold for
  every extended real.
-/
import Idealize.ShloMosaic.PureOps.Ideal
import Idealize.ShloMosaic.PureOps.Ideal.Laws
import Idealize.ShloMosaic.Lib.ValueIdx

noncomputable section

open scoped BigOperators

namespace Cert.RowScore

open Idealize.ShloMosaic Idealize.ShloMosaic.ValueIdx

/-- The real part of the head rotated by the relation, at one entry. -/
def rotRe (hr hi rr ri : EReal) : EReal := hr * rr - hi * ri

/-- The imaginary part of the head rotated by the relation, at one entry (the minus sign is the convention of the
    source). -/
def rotIm (hr hi rr ri : EReal) : EReal := -(hi * rr + hr * ri)

/-- One row's result from its six rows of 2048 entries. -/
def rowScore (hr hi rr ri tr ti : Fin 2048 → EReal) : EReal :=
  Ideal.div
    (∑ k : Fin 2048, (rotRe (hr k) (hi k) (rr k) (ri k) * tr k + rotIm (hr k) (hi k) (rr k) (ri k) * ti k))
    (Ideal.sqrt
      ((∑ k : Fin 2048, (rotRe (hr k) (hi k) (rr k) (ri k) * rotRe (hr k) (hi k) (rr k) (ri k)
          + rotIm (hr k) (hi k) (rr k) (ri k) * rotIm (hr k) (hi k) (rr k) (ri k)))
        * (∑ k : Fin 2048, (tr k * tr k + ti k * ti k))))

/-- Entry `(n, k)` of an array of 8192 rows of 2048 entries. -/
abbrev at2 (n : Fin 8192) (k : Fin 2048) : (⟨2, ![8192, 2048]⟩ : Shape).Idx := ix2 n k

/-- The whole result: entry `n` is row `n`'s score, for each of the 8192 rows of the six argument arrays. -/
def scores (hr hi rr ri tr ti : (⟨2, ![8192, 2048]⟩ : Shape).Idx → EReal) : (⟨1, ![8192]⟩ : Shape).Idx → EReal :=
  fun j => rowScore (fun k => hr (at2 ⟨(j 0).val, (j 0).isLt⟩ k)) (fun k => hi (at2 ⟨(j 0).val, (j 0).isLt⟩ k))
    (fun k => rr (at2 ⟨(j 0).val, (j 0).isLt⟩ k)) (fun k => ri (at2 ⟨(j 0).val, (j 0).isLt⟩ k))
    (fun k => tr (at2 ⟨(j 0).val, (j 0).isLt⟩ k)) (fun k => ti (at2 ⟨(j 0).val, (j 0).isLt⟩ k))

/-- Subtracting from zero is negation, on every extended real (infinite ones included). -/
theorem zero_sub_ereal (x : EReal) : (0 : EReal) - x = -x := by rw [sub_eq_add_neg, zero_add]

/-- The rotated imaginary part written as a difference from zero, as a vector unit without a negation writes it. -/
theorem rotIm_eq_zero_sub (hr hi rr ri : EReal) : (0 : EReal) - (hi * rr + hr * ri) = rotIm hr hi rr ri :=
  zero_sub_ereal _

end Cert.RowScore

end
-- ==== Proof.RefScore.lean ====
/-
  The reference's result, index by index, is the row score.

  The reference is twenty-five whole-array operations on the host. Read at entry `n` of its result, its last
  operation is a quotient whose numerator is the first row sum and whose denominator is the root of the product of
  the other two row sums; a row sum at `n` is its initial value, the zero word, plus the sum over the 2048 columns
  of the summand at `(n, k)`; and each summand at `(n, k)` is products, a difference, a sum and a negation of the six
  arguments at `(n, k)`. That is the row score of row `n`, once the zero initial values are dropped.
-/
import proofs.«122529_j5179730559619_1_alg».proof.Proof.Gen.ReferenceIdeal.Read
import proofs.«122529_j5179730559619_1_alg».proof.Proof.RowScore

noncomputable section

open scoped BigOperators

namespace Cert.RowScore.Reference

open Idealize.ShloMosaic Idealize.ShloMosaic.ValueIdx Cert.ReferenceIdeal Cert.ReferenceIdeal.Read

/-- The three row sums all read the summand at column `k` of row `n`: the generated index functions are one, the
    entry `(n, k)`. -/
theorem idx10 (i : S8192.Idx) (k : Fin 2048) : idx_main_v10 i k = at2 ⟨(i 0).val, (i 0).isLt⟩ k :=
  funext fun a => Fin.ext (by match a with | ⟨0, _⟩ => rfl | ⟨1, _⟩ => rfl)
theorem idx14 (i : S8192.Idx) (k : Fin 2048) : idx_main_v14 i k = at2 ⟨(i 0).val, (i 0).isLt⟩ k :=
  funext fun a => Fin.ext (by match a with | ⟨0, _⟩ => rfl | ⟨1, _⟩ => rfl)
theorem idx18 (i : S8192.Idx) (k : Fin 2048) : idx_main_v18 i k = at2 ⟨(i 0).val, (i 0).isLt⟩ k :=
  funext fun a => Fin.ext (by match a with | ⟨0, _⟩ => rfl | ⟨1, _⟩ => rfl)

/-- The reference's result is `scores` of its six arguments. -/
theorem result_eq (x0 x1 x2 x3 x4 x5 : (⟨S8192x2048, .f32⟩ : BufTy).Contents (Elt Ideal)) :
    val_main_v21 (F := Ideal) x0 x1 x2 x3 x4 x5 = scores x0 x1 x2 x3 x4 x5 := by
  funext i
  rw [val_main_v21_apply, val_main_v10_apply, val_main_v20_apply, val_main_v19_apply, val_main_v14_apply,
    val_main_v18_apply]
  simp only [idx10, idx14, idx18, val_main_v9_apply, val_main_v7_apply, val_main_v8_apply, val_main_v13_apply,
    val_main_v11_apply, val_main_v12_apply, val_main_v17_apply, val_main_v15_apply, val_main_v16_apply,
    val_main_v2_apply, val_main_v6_apply, val_main_v5_apply, val_main_v0_apply, val_main_v1_apply, val_main_v3_apply,
    val_main_v4_apply, val_main_cst_apply, val_main_cst_0_apply, val_main_cst_1_apply,
    Ideal.hostDivf_def, Ideal.hostUnary_sqrt_def, Ideal.mulf_def, Ideal.addf_def, Ideal.subf_def, Ideal.hostNegf_def,
    Ideal.negf_def, Ideal.ofBits_def, Ideal.ofBits_zero_f32, zero_add]
  rfl

end Cert.RowScore.Reference

end
-- ==== Proof.BlockScore.lean ====
/-
  What the kernel body stores for one row of its block is that row's score.

  At a grid point the body holds a block of 256 rows of each of the six arguments and stores one vector of 256
  results. Result `p` is a quotient whose numerator is the first lane sum at `p` and whose denominator is the root of
  the product of the other two; a lane sum at `p` is the sum over the 2048 columns of its summand at `(p, k)`; and a
  summand at `(p, k)` is products, differences and sums of the six blocks at `(p, k)`, the negation of the
  rotated imaginary part being written as a difference from the zero word. That is the row score of the block's row
  `p`, once `0 - x` is read as `-x`.
-/
import proofs.«122529_j5179730559619_1_alg».proof.Proof.Gen.KernelIdeal.Skeleton
import proofs.«122529_j5179730559619_1_alg».proof.Proof.RowScore

noncomputable section

open scoped BigOperators

namespace Cert.RowScore.Kernel

open Idealize.ShloMosaic Idealize.ShloMosaic.ValueIdx Cert.KernelIdeal Cert.KernelIdeal.Gen

/-- A lane sum of a block of 256 rows of 2048 entries, read at row `p`: the sum over the columns of the entries
    `(p, k)`. -/
theorem laneSum_apply (src : FVec Ideal S256x2048 .f32) (p : Fin 256) :
    multiReduction .add [1] S256 src 0x00000000#32 Facts₀.reduces_S256x2048_S256 (.inl rfl) rfl (ix1 p)
      = ∑ k : Fin 2048, src (ix2 p k) := by
  refine (Ideal.multiReduction_add_single src 0x00000000#32 Facts₀.reduces_S256x2048_S256 (.inl rfl) rfl (ix1 p)).trans ?_
  refine Finset.sum_congr rfl fun k _ => congrArg src ?_
  exact funext fun a => Fin.ext (by match a with | ⟨0, _⟩ => rfl | ⟨1, _⟩ => rfl)

/-- The body's stored value at row `p` of the block is the row score of row `p` of the six blocks (head real and
    imaginary, relation real and imaginary, tail real and imaginary, in the order the body loads them). -/
theorem pay_eq (x0 x1 x2 x3 x4 x5 : Vec Ideal S256x2048 .f32) (p : Fin 256) :
    k0_pay1 (F := Ideal) x0 x1 x2 x3 x4 x5 (ix1 p)
      = rowScore (fun k => x0 (ix2 p k)) (fun k => x1 (ix2 p k)) (fun k => x2 (ix2 p k)) (fun k => x3 (ix2 p k))
          (fun k => x4 (ix2 p k)) (fun k => x5 (ix2 p k)) := by
  unfold k0_pay1 rowScore
  dsimp only
  refine congrArg₂ Ideal.div ?_ (congrArg Ideal.sqrt (congrArg₂ (· * ·) ?_ ?_))
  · refine (laneSum_apply _ p).trans (Finset.sum_congr rfl fun k _ => ?_)
    simp only [mulf_apply, addf_apply, subf_apply, broadcast_apply, Ideal.ofBits_def, Ideal.ofBits_zero_f32,
      rotIm_eq_zero_sub]
    rfl
  · refine (laneSum_apply _ p).trans (Finset.sum_congr rfl fun k _ => ?_)
    simp only [mulf_apply, addf_apply, subf_apply, broadcast_apply, Ideal.ofBits_def, Ideal.ofBits_zero_f32,
      rotIm_eq_zero_sub]
    rfl
  · refine (laneSum_apply _ p).trans (Finset.sum_congr rfl fun k _ => ?_)
    simp only [mulf_apply, addf_apply]

end Cert.RowScore.Kernel

end
-- ==== Proof.KernelScore.lean ====
/-
  From blocks to the whole result: the kernel's result array holds every row's score.

  The grid has 32 points. Point `t` owns rows `256 t … 256 t + 255`: of each of the six arguments it is handed the
  block of those rows, all 2048 columns, and it writes back the 256 results of those rows. So entry `(p, k)` of an
  argument's block at point `t` is the argument's entry `(256 t + p, k)`, and result `p` of the block lands at row
  `256 t + p` of the result array. With the body's stored value at row `p` being the row score of the six blocks' row
  `p`, what point `t` writes back is block `t` of the one whole-array function `scores` of the arguments. The 32
  blocks tile the 8192 rows (row `n` belongs to point `n / 256`), so after the run the array is `scores`.
-/
import proofs.«122529_j5179730559619_1_alg».proof.Proof.Gen.KernelIdeal.Value
import proofs.«122529_j5179730559619_1_alg».proof.Proof.BlockScore
import Idealize.ShloMosaic.Lib.Pipeline.Value

noncomputable section

open scoped BigOperators

namespace Cert.RowScore.Kernel

open Idealize.ShloMosaic Idealize.ShloMosaic.TcCoe Idealize.SL.Sem Idealize.ShloMosaic.ValueIdx
open Cert.KernelIdeal Cert.KernelIdeal.Gen Cert.KernelIdeal.Value
open Idealize.ShloMosaic.Pipeline (Dat)

variable (m : (ℓ : Loc nD τ sig) → Buf (Elt Ideal) ℓ) (ρ : Dev nD → PrngReg)

/-- The zero offset of a rank-1 block, as a constant function. -/
theorem hz1 : (![0] : Fin 1 → Nat) = fun _ => 0 := funext fun a => by fin_cases a; rfl
/-- The zero offset of a rank-2 block, as a constant function. -/
theorem hz2 : (![0, 0] : Fin 2 → Nat) = fun _ => 0 := funext fun a => by fin_cases a <;> rfl

/-- Which block each window hands point `t`, decided over the 32 points: the result's block index is `t`; every
    argument's block index is `(t, 0)`. -/
theorem idx_facts : ∀ t : Fin cfg0.N,
    win0_6.index t (0 : Fin 1) = t.val
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- What point `t` writes back is block `t` of `scores` of the six argument arrays: row `p` of the block is the row
    score of the six input blocks' row `p`, and each input block's entry `(p, k)` is its argument's entry
    `(256 t + p, k)`, the row the result's block puts `p` at. -/
theorem flushed_eq (c : Dev nD) (t : Fin cfg0.N) :
    (dats m 0 c).flushed 6 t = ((cfg0.win 6).blk t).view.read (Elt Ideal)
      (scores (V m c main_arg0) (V m c main_arg1) (V m c main_arg2) (V m c main_arg3) (V m c main_arg4) (V m c main_arg5)) := by
  rw [flushed6]
  unfold out0_6
  rw [View.canon_unit_zero hz1]
  simp only [View.ld_unit_zero (S := S256x2048) hz2]
  obtain ⟨e6, e00, e01, e10, e11, e20, e21, e30, e31, e40, e41, e50, e51⟩ := idx_facts t
  funext y
  obtain ⟨p, rfl⟩ : ∃ p : Fin 256, y = ix1 p := ⟨y 0, eq_ix1 y⟩
  show k0_pay1 (F := Ideal) (iblk m c 0 t) (iblk m c 1 t) (iblk m c 2 t) (iblk m c 3 t) (iblk m c 4 t) (iblk m c 5 t) (ix1 p)
    = scores (V m c main_arg0) (V m c main_arg1) (V m c main_arg2) (V m c main_arg3) (V m c main_arg4) (V m c main_arg5)
        (((cfg0.win 6).blk t).view.emb (ix1 p))
  refine (pay_eq (iblk m c 0 t) (iblk m c 1 t) (iblk m c 2 t) (iblk m c 3 t) (iblk m c 4 t) (iblk m c 5 t) p).trans ?_
  unfold scores
  congr 1 <;> funext k
  · show V m c main_arg0 (((cfg0.win 0).blk t).view.emb (ix2 p k)) = _
    refine congrArg (V m c main_arg0) (funext fun a => Fin.ext ?_)
    match a with
    | ⟨0, _⟩ => show win0_0.index t (0 : Fin 2) * 256 + 1 * p.val = win0_6.index t (0 : Fin 1) * 256 + 1 * p.val; omega
    | ⟨1, _⟩ => show win0_0.index t (1 : Fin 2) * 2048 + 1 * k.val = k.val; omega
  · show V m c main_arg1 (((cfg0.win 1).blk t).view.emb (ix2 p k)) = _
    refine congrArg (V m c main_arg1) (funext fun a => Fin.ext ?_)
    match a with
    | ⟨0, _⟩ => show win0_1.index t (0 : Fin 2) * 256 + 1 * p.val = win0_6.index t (0 : Fin 1) * 256 + 1 * p.val; omega
    | ⟨1, _⟩ => show win0_1.index t (1 : Fin 2) * 2048 + 1 * k.val = k.val; omega
  · show V m c main_arg2 (((cfg0.win 2).blk t).view.emb (ix2 p k)) = _
    refine congrArg (V m c main_arg2) (funext fun a => Fin.ext ?_)
    match a with
    | ⟨0, _⟩ => show win0_2.index t (0 : Fin 2) * 256 + 1 * p.val = win0_6.index t (0 : Fin 1) * 256 + 1 * p.val; omega
    | ⟨1, _⟩ => show win0_2.index t (1 : Fin 2) * 2048 + 1 * k.val = k.val; omega
  · show V m c main_arg3 (((cfg0.win 3).blk t).view.emb (ix2 p k)) = _
    refine congrArg (V m c main_arg3) (funext fun a => Fin.ext ?_)
    match a with
    | ⟨0, _⟩ => show win0_3.index t (0 : Fin 2) * 256 + 1 * p.val = win0_6.index t (0 : Fin 1) * 256 + 1 * p.val; omega
    | ⟨1, _⟩ => show win0_3.index t (1 : Fin 2) * 2048 + 1 * k.val = k.val; omega
  · show V m c main_arg4 (((cfg0.win 4).blk t).view.emb (ix2 p k)) = _
    refine congrArg (V m c main_arg4) (funext fun a => Fin.ext ?_)
    match a with
    | ⟨0, _⟩ => show win0_4.index t (0 : Fin 2) * 256 + 1 * p.val = win0_6.index t (0 : Fin 1) * 256 + 1 * p.val; omega
    | ⟨1, _⟩ => show win0_4.index t (1 : Fin 2) * 2048 + 1 * k.val = k.val; omega
  · show V m c main_arg5 (((cfg0.win 5).blk t).view.emb (ix2 p k)) = _
    refine congrArg (V m c main_arg5) (funext fun a => Fin.ext ?_)
    match a with
    | ⟨0, _⟩ => show win0_5.index t (0 : Fin 2) * 256 + 1 * p.val = win0_6.index t (0 : Fin 1) * 256 + 1 * p.val; omega
    | ⟨1, _⟩ => show win0_5.index t (1 : Fin 2) * 2048 + 1 * k.val = k.val; omega

/-- An entry of the result array lies in grid point `t`'s block exactly when its row is one of the 256 rows the
    point owns. -/
theorem mem_blk (t : Fin cfg0.N) (i : S8192.Idx) :
    i ∈ ((cfg0.win 6).blk t).view.set ↔ ∀ a : Fin 1, win0_6.index t a * S256.size a ≤ (i a).val ∧ (i a).val < win0_6.index t a * S256.size a + S256.size a := by
  show i ∈ ((View.whole main_v0).slice (win0_6.rect t)).set ↔ _
  rw [View.set_slice_whole, Rect.mem_set_unit]
  exact Iff.rfl

/-- Every row is written back by some grid point: row `n` by point `n / 256`. -/
theorem cover (i : S8192.Idx) : ∃ t : Fin cfg0.N, (cfg0.win 6).flush t = true ∧ i ∈ ((cfg0.win 6).blk t).view.set := by
  have hi : (i 0).val < 8192 := (i 0).isLt
  have hN : cfg0.N = 32 := N_0
  have ht : (i 0).val / 256 < cfg0.N := by rw [hN]; omega
  obtain ⟨e6, -⟩ := idx_facts ⟨(i 0).val / 256, ht⟩
  refine ⟨⟨(i 0).val / 256, ht⟩, flush0_6 _, ?_⟩
  rw [mem_blk]
  intro a
  match a with
  | ⟨0, _⟩ =>
    show win0_6.index ⟨(i 0).val / 256, ht⟩ (0 : Fin 1) * 256 ≤ (i 0).val ∧ (i 0).val < win0_6.index ⟨(i 0).val / 256, ht⟩ (0 : Fin 1) * 256 + 256
    rw [e6]
    show (i 0).val / 256 * 256 ≤ (i 0).val ∧ (i 0).val < (i 0).val / 256 * 256 + 256
    omega

/-- After the run the result array holds every row's score. -/
theorem final (c : Dev nD) : (dats m 0 c).arrAt 6 cfg0.N
    = scores (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) :=
  (dats m 0 c).arrAt_eq_of_cover 6
    (scores (V m c main_arg0) (V m c main_arg1) (V m c main_arg2) (V m c main_arg3) (V m c main_arg4) (V m c main_arg5))
    (fun t _ => flushed_eq m c t) cover

/-- The kernel's run, read: it terminates with the result array at the rows' scores and the six arguments
    unchanged. -/
theorem run : θ_run defs (onTc (τ := τ) (main (F := Ideal))) ⟨m, fun _ => 0, ρ⟩ fun r => ∀ c : Dev nD,
      r.2.mem ((c : Thread nD τ).loc main_v0)
        = scores (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.RowScore.Kernel

end
-- ==== Proof.lean ====
/-
  The certificate's claim: the kernel and its reference compute the same 8192 numbers.

  Both programs take six arrays of 8192 rows by 2048 columns (a head, a relation and a tail, each with a real and an
  imaginary part) and return, per row, the inner product of the rotated head with the tail divided by the root of
  the product of their squared lengths (`Cert.RowScore.rowScore`). The kernel does it 256 rows at a time over a grid of
  32 points, with lane sums and a negation written as a difference from zero; the reference does it with whole-array
  operations and sums that start from a zero initial value. Read on the extended reals, entry by entry, both are the
  one function `Cert.RowScore.scores` of the arguments: the reference by reading its operations at an index, the
  kernel by reading what each grid point writes back and tiling the rows with the points' blocks. The two spellings
  differ only by `0 - x = -x` and `0 + s = s`, which hold for every extended real, so the finiteness of the inputs
  is never used.

  The three frame claims are the two kernels' generated frames and the reference's generated run with its result
  dropped; the idealization rewrote no operation, so there is nothing to preserve.
-/
import proofs.«122529_j5179730559619_1_alg».proof.Defs
import proofs.«122529_j5179730559619_1_alg».proof.Proof.Gen.Kernel
import proofs.«122529_j5179730559619_1_alg».proof.Proof.Gen.Kernel.Skeleton
import proofs.«122529_j5179730559619_1_alg».proof.Proof.Gen.Kernel.Launch
import proofs.«122529_j5179730559619_1_alg».proof.Proof.Gen.Kernel.Points
import proofs.«122529_j5179730559619_1_alg».proof.Proof.Gen.Kernel.Frame
import proofs.«122529_j5179730559619_1_alg».proof.Proof.Gen.KernelIdeal
import proofs.«122529_j5179730559619_1_alg».proof.Proof.Gen.KernelIdeal.Skeleton
import proofs.«122529_j5179730559619_1_alg».proof.Proof.Gen.KernelIdeal.Launch
import proofs.«122529_j5179730559619_1_alg».proof.Proof.Gen.KernelIdeal.Points
import proofs.«122529_j5179730559619_1_alg».proof.Proof.Gen.KernelIdeal.Frame
import proofs.«122529_j5179730559619_1_alg».proof.Proof.Gen.ReferenceIdeal
import proofs.«122529_j5179730559619_1_alg».proof.Proof.Gen.Pre_finite_inputs
import proofs.«122529_j5179730559619_1_alg».proof.Proof.Gen.KernelIdeal.Value
import proofs.«122529_j5179730559619_1_alg».proof.Proof.Gen.ReferenceIdeal.Run
import proofs.«122529_j5179730559619_1_alg».proof.Proof.Gen.ReferenceIdeal.Read
import proofs.«122529_j5179730559619_1_alg».proof.Proof.RowScore
import proofs.«122529_j5179730559619_1_alg».proof.Proof.RefScore
import proofs.«122529_j5179730559619_1_alg».proof.Proof.BlockScore
import proofs.«122529_j5179730559619_1_alg».proof.Proof.KernelScore
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the six arguments, both idealized programs end with the result array at the rows'
    scores of those arguments: the kernel by its blocks, the reference by its operations read at an index. -/
theorem algebraic : Cert.algebraic_KernelIdeal_ReferenceIdeal := by
  intro m ρ m' ρ' _ hagree
  refine ⟨_, Cert.RowScore.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [a0, a1, a2, a3, a4, a5]
  exact (Cert.ReferenceIdeal.Read.val_main_v21_eq _ _ _ _ _ _).trans (Cert.RowScore.Reference.result_eq _ _ _ _ _ _)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
